-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x4096 : Shape := ⟨2, ![4096, 4096]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S1024x4096 .f32) (main_arg1 : FVec F S4096x4096 .f32) (main_arg2 : FVec F S4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S1024x4096 : Shape := ⟨2, ![1024, 4096]⟩
abbrev S4096x4096 : Shape := ⟨2, ![4096, 4096]⟩
abbrev S4096 : Shape := ⟨1, ![4096]⟩
abbrev S1x4096 : Shape := ⟨2, ![1, 4096]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S1024x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  natLt_1_32 : 1 < 32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S1024x4096.size a
  hwx0_0 : ∀ i : grid0.Coords, EltTy.bits .f32 = 32 ∨ (Rect.block (s := S1024x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S1024x4096.size a
  hwx0_3 : ∀ i : grid0.Coords, EltTy.bits .f32 = 32 ∨ (Rect.block (s := S1024x4096) S512x1024.size (cc0_transform_3 i) (hinb0_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x4096 : Shape := ⟨2, ![1024, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S4096x4096, .f32⟩
  | .hbm, ⟨7, _⟩ => ⟨S1024x4096, .f32⟩
  | .hbm, ⟨8, _⟩ => ⟨S_, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S1x4096, .f32⟩
  | .hbm, ⟨16, _⟩ => ⟨S1024x4096, .f32⟩
  | .hbm, ⟨17, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  dot_S1024x4096_S4096x4096_S1024x4096_1_1_0_0_n_n_wf : DotDims.WF S1024x4096 S4096x4096 S1024x4096 [1] [1] [0] [0] [] []

variable [Facts₀]

def dot_S1024x4096_S4096x4096_S1024x4096_1_1_0_0_n_n : DotDims S1024x4096 S4096x4096 S1024x4096 where
  lhsContracting := [1]
  rhsContracting := [1]
  lhsNonContracting := [0]
  rhsNonContracting := [0]
  lhsBatch := []
  rhsBatch := []
  wf := dot_S1024x4096_S4096x4096_S1024x4096_1_1_0_0_n_n_wf

class Facts : Prop extends Facts₀ where

variable [Facts]
-- ==== Proof.Spec.lean ====
/-
  The function both programs compute, index by index, over the extended reals.

  With x : [1024, 4096], w : [4096, 4096], s : [4096], the entry (p, q) of the result is

      (∑ k, x[p, k] · 𝟙(w[q, k] > 0)) · round(max(s[q], 1)),

  the indicator being the real 1 where the weight is positive and 0 elsewhere, and the rounding to the nearest
  integer with ties to even.  This module states that function and the few scalar facts used around it; it
  mentions no program.
-/
import Idealize.ShloMosaic.PureOps.Ideal
import Idealize.ShloMosaic.PureOps.Ideal.Laws
import Idealize.ShloMosaic.Lib.ValueIdx

noncomputable section

namespace Cert.BinLinear

open Idealize.ShloMosaic Idealize.ShloMosaic.ValueIdx

/-- The literal shapes of the three arguments and the result. -/
abbrev SX : Shape := ⟨2, ![1024, 4096]⟩
abbrev SW : Shape := ⟨2, ![4096, 4096]⟩
abbrev SS : Shape := ⟨1, ![4096]⟩

/-- The float zero and one the programs compare and clamp against, as their words. -/
abbrev zeroF : EReal := Ideal.ofBits .f32 0x00000000#32
abbrev oneF : EReal := Ideal.ofBits .f32 0x3F800000#32

/-- The indicator of a positive weight: the comparison's bit read as a natural number. -/
def ind (w : EReal) : EReal := (((Ideal.cmp .ogt w zeroF).toNat : ℝ) : EReal)

/-- The effective scale of an output channel: its scale clamped below by one, rounded half to even. -/
def scale (s : EReal) : EReal := Ideal.liftRound Ideal.roundHalfEven (max s oneF)

/-- A row of `x` against a binarized row of `w`: the sum over the whole contraction axis. -/
def dotRow (x : SX.Idx → EReal) (w : SW.Idx → EReal) (p : Fin 1024) (q : Fin 4096) : EReal :=
  ∑ k : Fin 4096, x (ix2 p k) * ind (w (ix2 q k))

/-- The result at row `p`, column `q`. -/
def entry (x : SX.Idx → EReal) (w : SW.Idx → EReal) (s : SS.Idx → EReal) (p : Fin 1024) (q : Fin 4096) : EReal :=
  dotRow x w p q * scale (s (ix1 q))

/-- The result as an array. -/
def result (x : SX.Idx → EReal) (w : SW.Idx → EReal) (s : SS.Idx → EReal) : SX.Idx → EReal :=
  fun i => entry x w s (i 0) (i 1)

/-- A one-bit word widened to 32 bits and read signed is the bit read unsigned: both are 0 or 1. -/
theorem toInt_setWidth_bit (b : BitVec 1) : (((b.setWidth 32).toInt : ℝ) : EReal) = ((b.toNat : ℝ) : EReal) := by
  have h : (b.setWidth 32).toInt = (b.toNat : ℤ) := by
    by_cases h : b = 1#1
    · subst h; decide
    · obtain rfl := eq_zero_of_ne_one h; decide
  rw [h, Int.cast_natCast]

/-- Taking a real away from an extended real and adding it back changes nothing. -/
theorem sub_add_real (a : EReal) (r : ℝ) : a - (r : EReal) + (r : EReal) = a := by
  induction a using EReal.rec with
  | bot => simp
  | top => simp
  | coe a => rw [← EReal.coe_sub, ← EReal.coe_add]; congr 1; ring

/-! ## The contraction axis cut into consecutive stretches

The kernel walks the contraction axis in four stretches of 1024 and adds one stretch's products at a time.  To
follow it the arrays are read at natural-number coordinates (zero outside their extents), so that the row
`R + p`, the column `C + q` and the position `K + kk` of a block need no bound proofs in the statements. -/

/-- `x` at natural-number coordinates. -/
def xAt (x : SX.Idx → EReal) (r k : ℕ) : EReal := if h : r < 1024 ∧ k < 4096 then x (ix2 ⟨r, h.1⟩ ⟨k, h.2⟩) else 0

/-- `w` at natural-number coordinates. -/
def wAt (w : SW.Idx → EReal) (r k : ℕ) : EReal := if h : r < 4096 ∧ k < 4096 then w (ix2 ⟨r, h.1⟩ ⟨k, h.2⟩) else 0

/-- `s` at a natural-number coordinate. -/
def sAt (s : SS.Idx → EReal) (q : ℕ) : EReal := if h : q < 4096 then s (ix1 ⟨q, h⟩) else 0

/-- One product of the contraction: row `r` of `x` against the binarized row `c` of `w`, at position `k`. -/
def term (x : SX.Idx → EReal) (w : SW.Idx → EReal) (r c k : ℕ) : EReal := xAt x r k * ind (wAt w c k)

/-- The sum of the first `n` products. -/
def part (x : SX.Idx → EReal) (w : SW.Idx → EReal) (r c n : ℕ) : EReal := ∑ k ∈ Finset.range n, term x w r c k

theorem part_zero (x : SX.Idx → EReal) (w : SW.Idx → EReal) (r c : ℕ) : part x w r c 0 = 0 := by
  unfold part; rw [Finset.range_zero, Finset.sum_empty]

/-- Lengthening the sum by a stretch of `b` products adds that stretch. -/
theorem part_add (x : SX.Idx → EReal) (w : SW.Idx → EReal) (r c n b : ℕ) :
    part x w r c (n + b) = part x w r c n + ∑ kk : Fin b, term x w r c (n + kk.val) := by
  unfold part; rw [Finset.sum_range_add]
  exact congrArg (_ + ·) (Finset.sum_range fun kk => term x w r c (n + kk))

/-- All 4096 products are the whole row sum. -/
theorem part_full (x : SX.Idx → EReal) (w : SW.Idx → EReal) (p : Fin 1024) (q : Fin 4096) :
    part x w p.val q.val 4096 = dotRow x w p q := by
  unfold part dotRow; rw [Finset.sum_range]
  refine Finset.sum_congr rfl fun k _ => ?_
  unfold term xAt wAt
  rw [dif_pos ⟨p.isLt, k.isLt⟩, dif_pos ⟨q.isLt, k.isLt⟩]

theorem sAt_val (s : SS.Idx → EReal) (q : Fin 4096) : sAt s q.val = s (ix1 q) := by
  unfold sAt; rw [dif_pos q.isLt]

/-- The result at an index, through the natural-number readings: all 4096 products times the column's scale. -/
theorem result_at (x : SX.Idx → EReal) (w : SW.Idx → EReal) (s : SS.Idx → EReal) (p : Fin 1024) (q : Fin 4096) :
    result x w s (ix2 p q) = part x w p.val q.val 4096 * scale (sAt s q.val) := by
  show entry x w s p q = _
  unfold entry; rw [part_full, sAt_val]

end Cert.BinLinear

end
-- ==== Proof.Pieces.lean ====
/-
  What one run of the kernel body leaves behind, as values.

  The body, at a grid point (i, j, k), holds a [512, 1024] accumulator across the four points of the contraction
  axis.  At k = 0 it first stores zeros, and at every point it then stores

      acc + (x block) · (binarized w block)ᵀ;

  at k = 3 it finally stores  acc · round(max(s block, 1))  into the output block.  The three lemmas below read
  those stores back for each of the three shapes a point can have (first, middle, last), for any float instance.
-/
import proofs.«104618_j39754217292616_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle point (k = 1, 2): the accumulator ends at the previous contents plus this stretch's product. -/
theorem acc_middle (c : Dev nD) (i : grid0.Coords) (a3 : Memref sig .tc .vmem S512x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S512x1024 .f32) (h6 : a6.IsWhole) (a7 : Memref sig .tc .vmem S512x1024 .f32) (h7 : a7.IsWhole)
    (hc0 : ¬cond0_0 i) (hc1 : ¬cond0_1 i)
    (x0 : Vec F S512x1024 .f32) (x1 : Vec F S1024x1024 .f32) (x2 : Vec F S1x1024 .f32) (xs0 : Vec F S512x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h7.read_unread, View.ld_unit_zero (S := S512x1024) hz,
    View.ld_unit_zero (S := S1024x1024) hz]

/-- The first point (k = 0): the accumulator is reset to zeros and then holds zeros plus the first stretch's product. -/
theorem acc_first (c : Dev nD) (i : grid0.Coords) (a3 : Memref sig .tc .vmem S512x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S512x1024 .f32) (h6 : a6.IsWhole) (a7 : Memref sig .tc .vmem S512x1024 .f32) (h7 : a7.IsWhole)
    (hc0 : cond0_0 i) (hc1 : ¬cond0_1 i)
    (x0 : Vec F S512x1024 .f32) (x1 : Vec F S1024x1024 .f32) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x1024) hz]
  simp only [View.readAt_eq_ld, h3.read_unread, h4.read_unread, View.ld_unit_zero (S := S512x1024) hz,
    View.ld_unit_zero (S := S1024x1024) hz, View.readCov_unit_zero (S := S512x1024) _ hz]

/-- The last point (k = 3), the accumulator: as at a middle point. -/
theorem acc_last (c : Dev nD) (i : grid0.Coords) (a3 : Memref sig .tc .vmem S512x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S512x1024 .f32) (h6 : a6.IsWhole) (a7 : Memref sig .tc .vmem S512x1024 .f32) (h7 : a7.IsWhole)
    (hc0 : ¬cond0_0 i) (hc1 : cond0_1 i)
    (x0 : Vec F S512x1024 .f32) (x1 : Vec F S1024x1024 .f32) (x2 : Vec F S1x1024 .f32) (xs0 : Vec F S512x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S512x1024) hz,
    View.ld_unit_zero (S := S1024x1024) hz]

/-- The last point (k = 3), the output block: the finished accumulator times the rounded, clamped scales. -/
theorem out_last (c : Dev nD) (i : grid0.Coords) (a3 : Memref sig .tc .vmem S512x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S512x1024 .f32) (h6 : a6.IsWhole) (a7 : Memref sig .tc .vmem S512x1024 .f32) (h7 : a7.IsWhole)
    (hc0 : ¬cond0_0 i) (hc1 : cond0_1 i)
    (x0 : Vec F S512x1024 .f32) (x1 : Vec F S1024x1024 .f32) (x2 : Vec F S1x1024 .f32) (xs0 : Vec F S512x1024 .f32) :
    out0_C_3 c i a3 h3 a4 h4 a5 h5 a6 h6 a7 h7 hc0 hc1 x0 x1 x2 xs0 = k0_pay3 x2 (k0_pay2 x0 x1 xs0) := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread,
    View.ld_unit_zero (S := S512x1024) hz, View.ld_unit_zero (S := S1024x1024) hz, View.ld_unit_zero (S := S1x1024) hz,
    View.readCov_unit_zero (S := S512x1024) _ hz]

end Cert.KernelIdeal.Pieces

end
-- ==== Proof.Payload.lean ====
/-
  The body's arithmetic read at an index, over the extended reals.

  At entry (p, q) of a [512, 1024] block the accumulator update is

      acc[p, q] + ∑ kk < 1024, xb[p, kk] · 𝟙(wb[q, kk] > 0),

  the binarized weight being the comparison's bit widened and converted (0 or 1 exactly; a change of float format
  is the identity here), and the final store is  acc[p, q] · round(max(sb[0, q], 1)).
-/
import proofs.«104618_j39754217292616_1_alg».proof.Proof.Gen.KernelIdeal.Skeleton
import proofs.«104618_j39754217292616_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payload

open Cert.KernelIdeal Cert.KernelIdeal.Gen Cert.BinLinear

/-! ## The block product: both operands are contracted along their second axis -/

theorem lhs_axis0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_axis1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_axis0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_axis1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- Entry (p, q) of the block product into a zero accumulator: row p of the left block against ROW q of the right. -/
theorem product_at (l : FVec Ideal S512x1024 .bf16) (r : FVec Ideal S1024x1024 .bf16) (p : Fin 512) (q : Fin 1024) :
    matmul (F := Ideal) dot_S512x1024_S1024x1024_S512x1024_1_1_0_0_n_n none l r (constant (F := Ideal) S512x1024 .f32 0x00000000#32) (ix2 p q)
      = ∑ kk : Fin 1024, l (ix2 p kk) * r (ix2 q kk) := by
  refine (Ideal.matmul_constant_zero_apply dot_S512x1024_S1024x1024_S512x1024_1_1_0_0_n_n none l r (ix2 p q)).trans ?_
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p q) ((contrEquiv1 dot_S512x1024_S1024x1024_S512x1024_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S512x1024_S1024x1024_S512x1024_1_1_0_0_n_n.rhsIdx (ix2 p q) ((contrEquiv1 dot_S512x1024_S1024x1024_S512x1024_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-! ## The three stored values at an index -/

/-- The reset stores zero everywhere. -/
theorem reset_at (p : Fin 512) (q : Fin 1024) : k0_pay1 (F := Ideal) (ix2 p q) = 0 := by
  unfold k0_pay1
  rw [shapeCast_self]
  exact Ideal.ofBits_zero_f32

/-- The accumulator update at (p, q). -/
theorem update_at (xb : Vec Ideal S512x1024 .f32) (wb : Vec Ideal S1024x1024 .f32) (acc : Vec Ideal S512x1024 .f32)
    (p : Fin 512) (q : Fin 1024) :
    k0_pay2 (F := Ideal) xb wb acc (ix2 p q) = acc (ix2 p q) + ∑ kk : Fin 1024, xb (ix2 p kk) * ind (wb (ix2 q kk)) := by
  unfold k0_pay2
  rw [shapeCast_self]
  refine (addf_apply _ _ _).trans ?_
  refine congrArg (acc (ix2 p q) + ·) ?_
  refine (product_at _ _ p q).trans ?_
  refine Finset.sum_congr rfl fun kk _ => ?_
  refine congrArg (xb (ix2 p kk) * ·) ?_
  exact toInt_setWidth_bit _

/-- The final store at (p, q): the accumulator times the effective scale of column q. -/
theorem final_at (sb : Vec Ideal S1x1024 .f32) (acc : Vec Ideal S512x1024 .f32) (p : Fin 512) (q : Fin 1024) :
    k0_pay3 (F := Ideal) sb acc (ix2 p q) = acc (ix2 p q) * scale (sb (ix2 (0 : Fin 1) q)) := by
  unfold k0_pay3
  refine (mulf_apply _ _ _).trans ?_
  refine congrArg (acc (ix2 p q) * ·) ?_
  refine (broadcastTo_1b_ab_apply _ _ p q).trans ?_
  rw [shapeCast_self]
  rfl

end Cert.KernelIdeal.Payload

end
-- ==== Proof.KernelValue.lean ====
/-
  The kernel's result array, at the extended reals, is the stated function of its three arguments.

  The grid is 2 × 4 × 4, the last axis (the contraction's four stretches) fastest: point t works on row block
  t / 16, column block (t / 4) mod 4 and stretch t mod 4.  By induction on the point, the accumulator after point t
  holds, at (p, q), the sum of the first (t mod 4 + 1) · 1024 products of row  (t / 16) · 512 + p  of x against the
  binarized row  ((t / 4) mod 4) · 1024 + q  of w.  At the points with t mod 4 = 3 all 4096 products are in, the
  output block is that sum times the column's effective scale, and it is written back; those eight blocks tile the
  result array.
-/
import proofs.«104618_j39754217292616_1_alg».proof.Proof.Gen.KernelIdeal.Value
import proofs.«104618_j39754217292616_1_alg».proof.Proof.Pieces
import proofs.«104618_j39754217292616_1_alg».proof.Proof.Payload
import proofs.«104618_j39754217292616_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.BinLinear

variable (m : (ℓ : Loc nD τ sig) → Buf (Elt Ideal) ℓ) (ρ : Dev nD → PrngReg)

/-- The three argument arrays as launched. -/
abbrev X (c : Dev nD) : SX.Idx → EReal := m ((c : Thread nD τ).loc main_arg0)
abbrev W (c : Dev nD) : SW.Idx → EReal := m ((c : Thread nD τ).loc main_arg1)
abbrev Sc (c : Dev nD) : SS.Idx → EReal := m ((c : Thread nD τ).loc main_arg2)

/-- The three input blocks of a point, at their literal shapes. -/
abbrev xblk (c : Dev nD) (t : Fin cfg0.N) : Vec Ideal S512x1024 .f32 := iblk m c 0 t
abbrev wblk (c : Dev nD) (t : Fin cfg0.N) : Vec Ideal S1024x1024 .f32 := iblk m c 1 t
abbrev sblk (c : Dev nD) (t : Fin cfg0.N) : Vec Ideal S1x1024 .f32 := iblk m c 2 t

/-- Where each window's block sits at point t, decided over the 32 points. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The x block of point t is rows (t / 16) · 512 + p, positions (t mod 4) · 1024 + kk of x. -/
theorem xblk_at (c : Dev nD) (t : Fin cfg0.N) (p : Fin 512) (kk : Fin 1024) :
    xblk m c t (ix2 p kk) = xAt (X m c) (t.val / 16 * 512 + p.val) (t.val % 4 * 1024 + kk.val) := by
  obtain ⟨e0, e1, -⟩ := idx_facts t
  have hN : t.val < 32 := lt_of_lt_of_eq t.isLt N_0
  unfold xAt
  rw [dif_pos ⟨by omega, by omega⟩]
  show (((cfg0.win 0).blk t).view.read (Elt Ideal) (V m c main_arg0)) (ix2 p kk) = _
  rw [View.read_apply]
  show V m c main_arg0 _ = m ((c : Thread nD τ).loc main_arg0) _
  rw [V_main_arg0]
  congr 1
  funext a
  apply Fin.ext
  match a with
  | ⟨0, _⟩ => show win0_0.index t (0 : Fin 2) * 512 + 1 * p.val = t.val / 16 * 512 + p.val; rw [e0]; omega
  | ⟨1, _⟩ => show win0_0.index t (1 : Fin 2) * 1024 + 1 * kk.val = t.val % 4 * 1024 + kk.val; rw [e1]; omega

/-- The w block of point t is rows ((t / 4) mod 4) · 1024 + q, positions (t mod 4) · 1024 + kk of w. -/
theorem wblk_at (c : Dev nD) (t : Fin cfg0.N) (q : Fin 1024) (kk : Fin 1024) :
    wblk m c t (ix2 q kk) = wAt (W m c) (t.val / 4 % 4 * 1024 + q.val) (t.val % 4 * 1024 + kk.val) := by
  obtain ⟨-, -, e0, e1, -⟩ := idx_facts t
  have hN : t.val < 32 := lt_of_lt_of_eq t.isLt N_0
  unfold wAt
  rw [dif_pos ⟨by omega, by omega⟩]
  show (((cfg0.win 1).blk t).view.read (Elt Ideal) (V m c main_arg1)) (ix2 q kk) = _
  rw [View.read_apply]
  show V m c main_arg1 _ = m ((c : Thread nD τ).loc main_arg1) _
  rw [V_main_arg1]
  congr 1
  funext a
  apply Fin.ext
  match a with
  | ⟨0, _⟩ => show win0_1.index t (0 : Fin 2) * 1024 + 1 * q.val = t.val / 4 % 4 * 1024 + q.val; rw [e0]; omega
  | ⟨1, _⟩ => show win0_1.index t (1 : Fin 2) * 1024 + 1 * kk.val = t.val % 4 * 1024 + kk.val; rw [e1]; omega

/-- The scales reach the kernel as a [1, 4096] array: the [4096] argument with a unit axis put in front. -/
theorem scales_2d (c : Dev nD) : (V m c main_v0 : S1x4096.Idx → EReal)
    = shapeCast S1x4096 (m ((c : Thread nD τ).loc main_arg2)) shapeCasts_S4096_S1x4096 := by
  dsimp only [Gen.V, Gen.hostOps0]; after_results; rfl

/-- The s block of point t is columns ((t / 4) mod 4) · 1024 + q of the scales. -/
theorem sblk_at (c : Dev nD) (t : Fin cfg0.N) (q : Fin 1024) :
    sblk m c t (ix2 (0 : Fin 1) q) = sAt (Sc m c) (t.val / 4 % 4 * 1024 + q.val) := by
  obtain ⟨-, -, -, -, e0, e1, -⟩ := idx_facts t
  have hN : t.val < 32 := lt_of_lt_of_eq t.isLt N_0
  unfold sAt
  rw [dif_pos (by omega)]
  show (((cfg0.win 2).blk t).view.read (Elt Ideal) (V m c main_v0)) (ix2 (0 : Fin 1) q) = _
  rw [View.read_apply]
  show (V m c main_v0 : S1x4096.Idx → EReal) _ = _
  rw [scales_2d]
  have hq : t.val / 4 % 4 * 1024 + q.val < 4096 := by omega
  have he : ((cfg0.win 2).blk t).view.emb (ix2 (0 : Fin 1) q) = ix2 (0 : Fin 1) (⟨t.val / 4 % 4 * 1024 + q.val, hq⟩ : Fin 4096) := by
    funext a
    apply Fin.ext
    match a with
    | ⟨0, _⟩ => show win0_2.index t (0 : Fin 2) * 1 + 1 * 0 = 0; rw [e0]
    | ⟨1, _⟩ => show win0_2.index t (1 : Fin 2) * 1024 + 1 * q.val = t.val / 4 % 4 * 1024 + q.val; rw [e1]; omega
  rw [he]
  exact shapeCast_a_1a_apply _ _ _ _

/-! ## The accumulator, point by point -/

/-- The products a point adds, read through its blocks, are the stretch (t mod 4) · 1024 + kk of the row sum. -/
theorem stretch_eq (c : Dev nD) (t : Fin cfg0.N) (p : Fin 512) (q : Fin 1024) :
    ∑ kk : Fin 1024, xblk m c t (ix2 p kk) * ind (wblk m c t (ix2 q kk))
      = ∑ kk : Fin 1024, term (X m c) (W m c) (t.val / 16 * 512 + p.val) (t.val / 4 % 4 * 1024 + q.val) (t.val % 4 * 1024 + kk.val) := by
  refine Finset.sum_congr rfl fun kk _ => ?_
  rw [xblk_at, wblk_at]
  rfl

/-- Adding stretch k to the sum of the first k · 1024 products gives the first (k + 1) · 1024. -/
theorem add_stretch (x : SX.Idx → EReal) (w : SW.Idx → EReal) (r col k : ℕ) (prev : EReal)
    (hprev : prev = part x w r col (k * 1024)) :
    prev + ∑ kk : Fin 1024, term x w r col (k * 1024 + kk.val) = part x w r col ((k + 1) * 1024) := by
  rw [hprev, Nat.add_mul, Nat.one_mul, part_add]

/-- One point of the induction: given the accumulator the point before left (needed only away from a reset). -/
theorem acc_step (c : Dev nD) (t : Fin cfg0.N)
    (ih : ¬t.val % 4 = 0 → ∀ (p : Fin 512) (q : Fin 1024), (outsAt0 m c (t.val - 1) (Nat.lt_of_le_of_lt (Nat.sub_le _ _) t.isLt)).2 (ix2 p q)
        = part (X m c) (W m c) ((t.val - 1) / 16 * 512 + p.val) ((t.val - 1) / 4 % 4 * 1024 + q.val) (((t.val - 1) % 4 + 1) * 1024))
    (p : Fin 512) (q : Fin 1024) :
    (outsAt0 m c t.val t.isLt).2 (ix2 p q)
      = part (X m c) (W m c) (t.val / 16 * 512 + p.val) (t.val / 4 % 4 * 1024 + q.val) ((t.val % 4 + 1) * 1024) := by
  have hN : t.val < 32 := lt_of_lt_of_eq t.isLt N_0
  by_cases h0 : t.val % 4 = 0
  · have h1 : ¬t.val % 4 = 3 := by omega
    rw [outsAt0_A m c t h0 h1]
    dsimp only
    refine (congrFun (Pieces.acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (xblk m c t) (wblk m c t) (sblk m c t)) (ix2 p q)).trans ?_
    refine (Payload.update_at (xblk m c t) (wblk m c t) (k0_pay1 (F := Ideal)) p q).trans ?_
    rw [Payload.reset_at, stretch_eq]
    exact add_stretch _ _ _ _ (t.val % 4) 0 (by rw [h0, Nat.zero_mul, part_zero])
  · have hprev : (outsAt0 m c (t.val - 1) (Nat.lt_of_le_of_lt (Nat.sub_le _ _) t.isLt)).2 (ix2 p q)
        = part (X m c) (W m c) (t.val / 16 * 512 + p.val) (t.val / 4 % 4 * 1024 + q.val) (t.val % 4 * 1024) := by
      rw [ih h0 p q]
      have e1 : (t.val - 1) / 16 = t.val / 16 := by omega
      have e2 : (t.val - 1) / 4 % 4 = t.val / 4 % 4 := by omega
      have e3 : (t.val - 1) % 4 + 1 = t.val % 4 := by omega
      rw [e1, e2, e3]
    by_cases h1 : t.val % 4 = 3
    · rw [outsAt0_C m c t h0 h1]
      dsimp only
      refine (congrFun (Pieces.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (sblk m c t) (outsAt0 m c (t.val - 1) (Nat.lt_of_le_of_lt (Nat.sub_le _ _) t.isLt)).2) (ix2 p q)).trans ?_
      refine (Payload.update_at (xblk m c t) (wblk m c t) (outsAt0 m c (t.val - 1) (Nat.lt_of_le_of_lt (Nat.sub_le _ _) t.isLt)).2 p q).trans ?_
      rw [stretch_eq]
      exact add_stretch _ _ _ _ (t.val % 4) _ hprev
    · rw [outsAt0_B m c t h0 h1]
      dsimp only
      refine (congrFun (Pieces.acc_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (xblk m c t) (wblk m c t) (sblk m c t) (outsAt0 m c (t.val - 1) (Nat.lt_of_le_of_lt (Nat.sub_le _ _) t.isLt)).2) (ix2 p q)).trans ?_
      refine (Payload.update_at (xblk m c t) (wblk m c t) (outsAt0 m c (t.val - 1) (Nat.lt_of_le_of_lt (Nat.sub_le _ _) t.isLt)).2 p q).trans ?_
      rw [stretch_eq]
      exact add_stretch _ _ _ _ (t.val % 4) _ hprev

/-- THE ACCUMULATOR after point n, at (p, q): the first (n mod 4 + 1) · 1024 products of its row and column. -/
theorem acc_eq (c : Dev nD) : ∀ (n : ℕ) (h : n < cfg0.N) (p : Fin 512) (q : Fin 1024),
    (outsAt0 m c n h).2 (ix2 p q)
      = part (X m c) (W m c) (n / 16 * 512 + p.val) (n / 4 % 4 * 1024 + q.val) ((n % 4 + 1) * 1024) := by
  intro n
  induction n with
  | zero => exact fun h p q => acc_step m c ⟨0, h⟩ (fun h0 => absurd (Nat.zero_mod 4) h0) p q
  | succ n ihn => exact fun h p q => acc_step m c ⟨n + 1, h⟩ (fun _ p q => ihn (Nat.lt_of_succ_lt h) p q) p q

/-- THE OUTPUT BLOCK of a last point (t mod 4 = 3), at (p, q): all 4096 products times the column's scale. -/
theorem out_eq (c : Dev nD) (t : Fin cfg0.N) (h0 : ¬t.val % 4 = 0) (h3 : t.val % 4 = 3) (p : Fin 512) (q : Fin 1024) :
    (outsAt0 m c t.val t.isLt).1 (ix2 p q)
      = part (X m c) (W m c) (t.val / 16 * 512 + p.val) (t.val / 4 % 4 * 1024 + q.val) 4096
          * scale (sAt (Sc m c) (t.val / 4 % 4 * 1024 + q.val)) := by
  have hacc := acc_eq m c t.val t.isLt p q
  have e4 : (t.val % 4 + 1) * 1024 = 4096 := by rw [h3]
  rw [e4] at hacc
  rw [outsAt0_C m c t h0 h3] at hacc ⊢
  dsimp only at hacc ⊢
  refine (congrFun (Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (xblk m c t) (wblk m c t) (sblk m c t) (outsAt0 m c (t.val - 1) (Nat.lt_of_le_of_lt (Nat.sub_le _ _) t.isLt)).2) (ix2 p q)).trans ?_
  refine (Payload.final_at (sblk m c t) _ p q).trans ?_
  rw [sblk_at]
  refine congrArg (· * scale (sAt (Sc m c) (t.val / 4 % 4 * 1024 + q.val))) ?_
  exact (congrFun (Pieces.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (xblk m c t) (wblk m c t) (sblk m c t) (outsAt0 m c (t.val - 1) (Nat.lt_of_le_of_lt (Nat.sub_le _ _) t.isLt)).2) (ix2 p q)).symm.trans hacc

/-! ## From the blocks to the array -/

/-- What a last point writes back is its block of the stated function. -/
theorem flushed_eq (c : Dev nD) (t : Fin cfg0.N) (hf : (cfg0.win 3).flush t = true) :
    (dats m 0 c).flushed 3 t = ((cfg0.win 3).blk t).view.read (Elt Ideal) (result (X m c) (W m c) (Sc m c)) := by
  have h3 : t.val % 4 = 3 := (flush0_3 t).mp hf
  have h0 : ¬t.val % 4 = 0 := by omega
  obtain ⟨-, -, -, -, -, -, e0, e1⟩ := idx_facts t
  have hN : t.val < 32 := lt_of_lt_of_eq t.isLt N_0
  rw [Value.flushed3]
  funext j
  obtain ⟨p, q, rfl⟩ : ∃ (p : Fin 512) (q : Fin 1024), j = ix2 p q := ⟨j 0, j 1, eq_ix2 j⟩
  show (outsAt0 m c t.val t.isLt).1 (ix2 p q) = _
  rw [out_eq m c t h0 h3 p q, View.read_apply]
  show _ = result (X m c) (W m c) (Sc m c) (((cfg0.win 3).blk t).view.emb (ix2 p q))
  have hp : t.val / 16 * 512 + p.val < 1024 := by omega
  have hq : t.val / 4 % 4 * 1024 + q.val < 4096 := by omega
  have he : ((cfg0.win 3).blk t).view.emb (ix2 p q)
      = ix2 (⟨t.val / 16 * 512 + p.val, hp⟩ : Fin 1024) (⟨t.val / 4 % 4 * 1024 + q.val, hq⟩ : Fin 4096) := by
    funext a
    apply Fin.ext
    match a with
    | ⟨0, _⟩ => show win0_3.index t (0 : Fin 2) * 512 + 1 * p.val = t.val / 16 * 512 + p.val; rw [e0]; omega
    | ⟨1, _⟩ => show win0_3.index t (1 : Fin 2) * 1024 + 1 * q.val = t.val / 4 % 4 * 1024 + q.val; rw [e1]; omega
  rw [he, result_at]

/-- An index of the result array lies in point t's block iff each coordinate lies in the block's range. -/
theorem mem_blk (t : Fin cfg0.N) (i : S1024x4096.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v1).slice (win0_3.rect t)).set ↔ _
  rw [View.set_slice_whole, Rect.mem_set_unit]
  exact Iff.rfl

/-- Every index is in the block written back at the last point of its row block and column block. -/
theorem cover (i : S1024x4096.Idx) :
    ∃ t : Fin cfg0.N, (cfg0.win 3).flush t = true ∧ i ∈ ((cfg0.win 3).blk t).view.set := by
  have hi0 : (i 0).val < 1024 := (i 0).isLt
  have hi1 : (i 1).val < 4096 := (i 1).isLt
  have hlt : (i 0).val / 512 * 16 + (i 1).val / 1024 * 4 + 3 < cfg0.N := by rw [show cfg0.N = 32 from N_0]; omega
  obtain ⟨-, -, -, -, -, -, e0, e1⟩ := idx_facts ⟨_, hlt⟩
  refine ⟨⟨_, hlt⟩, (flush0_3 _).mpr (by dsimp only; omega), ?_⟩
  rw [mem_blk]
  intro a
  match a with
  | ⟨0, _⟩ =>
    show win0_3.index _ (0 : Fin 2) * 512 ≤ (i 0).val ∧ (i 0).val < win0_3.index _ (0 : Fin 2) * 512 + 512
    rw [e0]; dsimp only; omega
  | ⟨1, _⟩ =>
    show win0_3.index _ (1 : Fin 2) * 1024 ≤ (i 1).val ∧ (i 1).val < win0_3.index _ (1 : Fin 2) * 1024 + 1024
    rw [e1]; dsimp only; omega

/-- THE RESULT ARRAY after the run is the stated function of the arguments as launched. -/
theorem final (c : Dev nD) : (dats m 0 c).arrAt 3 cfg0.N = result (X m c) (W m c) (Sc m c) :=
  (dats m 0 c).arrAt_eq_of_cover 3 (result (X m c) (W m c) (Sc m c)) (flushed_eq m c) cover

/-- The kernel's run, read: the result array at the stated function, the arguments unchanged. -/
theorem run : θ_run defs (onTc (τ := τ) (main (F := Ideal))) ⟨m, fun _ => 0, ρ⟩ fun r => ∀ c : Dev nD,
      r.2.mem ((c : Thread nD τ).loc main_v1) = result (X m c) (W m c) (Sc m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KValue

end
-- ==== Proof.RefValue.lean ====
/-
  The reference, read index by index, is the stated function.

  Its result at (p, q) is (∑ k, x[p, k] · 𝟙(w[q, k] > 0)) · ((round(max(1, s[q])) − s[q]) + s[q]).  Taking a REAL
  s[q] away and adding it back changes nothing, so the last factor is round(max(s[q], 1)); that is the one place
  where the finiteness of the scales is used.
-/
import proofs.«104618_j39754217292616_1_alg».proof.Proof.Gen.ReferenceIdeal.Read
import proofs.«104618_j39754217292616_1_alg».proof.Proof.Spec

noncomputable section

open Idealize.ShloMosaic Idealize.ShloMosaic.ValueIdx

namespace Cert.ReferenceIdeal.RefValue

open Cert.ReferenceIdeal Cert.ReferenceIdeal.Read Cert.BinLinear

/-- The reference's last stage is the stated function of the three arguments, provided every scale is a real. -/
theorem stage_eq (x : (⟨S1024x4096, .f32⟩ : BufTy).Contents (Elt Ideal)) (w : (⟨S4096x4096, .f32⟩ : BufTy).Contents (Elt Ideal))
    (s : (⟨S4096, .f32⟩ : BufTy).Contents (Elt Ideal)) (hs : ∀ q : Fin 4096, ∃ r : ℝ, s (ix1 q) = (r : EReal)) :
    val_main_v10 (F := Ideal) x w s = result x w s := by
  funext i
  obtain ⟨p, q, rfl⟩ : ∃ (p : Fin 1024) (q : Fin 4096), i = ix2 p q := ⟨i 0, i 1, eq_ix2 i⟩
  have hj : idx_main_v8 (idx_main_v9 (ix2 p q)) = ix1 q := funext fun a => match a with | ⟨0, _⟩ => rfl
  have hl : ∀ k : Fin 4096, lidx_main_v3 (ix2 p q) k = ix2 p k := fun k => funext fun a => match a with
    | ⟨0, _⟩ => rfl
    | ⟨1, _⟩ => rfl
  have hr : ∀ k : Fin 4096, ridx_main_v3 (ix2 p q) k = ix2 q k := fun k => funext fun a => match a with
    | ⟨0, _⟩ => rfl
    | ⟨1, _⟩ => rfl
  rw [val_main_v10_apply, val_main_v3_apply, val_main_v9_apply, val_main_v8_apply, hj, val_main_v7_apply,
    val_main_v6_apply, val_main_v5_apply, val_main_v4_apply, val_main_call0_v1_apply, val_main_call0_v0_apply,
    val_main_cst_0_apply]
  obtain ⟨r, hr'⟩ := hs q
  show (∑ k : Fin 4096, x (lidx_main_v3 (ix2 p q) k) * val_main_v2 (F := Ideal) w (ridx_main_v3 (ix2 p q) k))
      * ((Ideal.liftRound Ideal.roundHalfEven (max oneF (s (ix1 q))) - s (ix1 q)) + s (ix1 q))
    = dotRow x w p q * scale (s (ix1 q))
  rw [hr', sub_add_real, ← hr', max_comm]
  refine congrArg (· * scale (s (ix1 q))) ?_
  unfold dotRow
  refine Finset.sum_congr rfl fun k _ => ?_
  rw [hl k, hr k]
  rfl

end Cert.ReferenceIdeal.RefValue

end
-- ==== Proof.Finite.lean ====
/-
  Finite scales are real numbers.

  The precondition says, for each of the three arguments, that every entry's absolute value lies strictly below
  +∞.  Of this only the third part is used: an extended real whose absolute value is below +∞ is neither infinity,
  so every scale is a real number.
-/
import proofs.«104618_j39754217292616_1_alg».proof.Pre_finite_inputs
import proofs.«104618_j39754217292616_1_alg».proof.Proof.Gen.Pre_finite_inputs
import Idealize.ShloMosaic.PureOps.Ideal
import Idealize.ShloMosaic.Lib.ReduceAll
import Idealize.ShloMosaic.Lib.ValueIdx
import Idealize.ShloMosaic.Lib.Pipeline.Value

noncomputable section

open Idealize.ShloMosaic Idealize.ShloMosaic.ValueIdx

namespace Cert.Pre_finite_inputs.Finite

open Cert.Pre_finite_inputs

/-- The rank-0 shape has one index. -/
instance : Subsingleton S_.Idx := ⟨fun a b => funext fun d => d.elim0⟩

/-- An extended real with |x| < +∞ is a real. -/
theorem real_of_abs_lt_top (x : EReal) (h : max x (-x) < ⊤) : ∃ r : ℝ, x = (r : EReal) := by
  induction x using EReal.rec with
  | bot => simp at h
  | top => simp at h
  | coe r => exact ⟨r, rfl⟩

/-- Under the precondition every scale is a real. -/
theorem scales_real (x0 : FVec Ideal S1024x4096 .f32) (x1 : FVec Ideal S4096x4096 .f32) (x2 : FVec Ideal S4096 .f32)
    (h : fn (F := Ideal) x0 x1 x2 = fun _ => 1#1) (q : Fin 4096) : ∃ r : ℝ, x2 (ix1 q) = (r : EReal) := by
  have h1 := congrFun h ix0
  dsimp only [fn] at h1
  obtain ⟨-, h3⟩ := IntOp.andi_eq_one.1 h1
  have h4 := Host.reduce_andi_all _ _ _ _ ix0 h3 (ix1 q)
  have h5 : Ideal.cmp .olt (max (x2 (ix1 q)) (-(x2 (ix1 q)))) (Ideal.ofBits .f32 0x7F800000#32) = 1#1 := h4
  have ht : Ideal.ofBits .f32 0x7F800000#32 = ⊤ := by simp [Ideal.ofBits, Ideal.ieee]
  rw [ht] at h5
  have h6 : max (x2 (ix1 q)) (-(x2 (ix1 q))) < ⊤ := by
    by_contra hc
    have h7 : Ideal.cmp .olt (max (x2 (ix1 q)) (-(x2 (ix1 q)))) ⊤ = 0#1 := by
      show BitVec.ofBool (decide (max (x2 (ix1 q)) (-(x2 (ix1 q))) < ⊤)) = 0#1
      rw [decide_eq_false hc]; rfl
    rw [h7] at h5
    exact absurd h5 (by decide)
  exact real_of_abs_lt_top _ h6

end Cert.Pre_finite_inputs.Finite

end
-- ==== Proof.lean ====
/-
  A binarized linear layer with a per-channel scale, proved equal to its reference over the extended reals.

  With x : [1024, 4096], w : [4096, 4096] and s : [4096], both programs compute, at row p and column q,

      (∑ k, x[p, k] · 𝟙(w[q, k] > 0)) · round(max(s[q], 1))          (rounding half to even).

  The kernel tiles the result into 2 × 4 blocks of [512, 1024] and walks the contraction axis in four stretches
  of 1024, adding each stretch's block product into an accumulator that it resets at the first stretch; after the
  fourth it multiplies by the rounded, clamped scales and writes the block out.  Sums of extended reals may be
  regrouped freely, so the four partial sums are the whole row sum (Proof/KernelValue.lean, over the stored values
  read back in Proof/Pieces.lean and Proof/Payload.lean).  The reference forms the whole row sum at once and uses
  (round(max(1, s)) − s) + s as its scale; for a REAL s that is round(max(s, 1)), and the precondition makes every
  scale real (Proof/RefValue.lean, Proof/Finite.lean).  The function itself is stated in Proof/Spec.lean.

  The two kernel frames are the generated ones; the reference's frame is its generated run with the result
  dropped; the idealization rewrote nothing, so its conjunct is trivial.
-/
import proofs.«104618_j39754217292616_1_alg».proof.Defs
import proofs.«104618_j39754217292616_1_alg».proof.Proof.Gen.Kernel
import proofs.«104618_j39754217292616_1_alg».proof.Proof.Gen.Kernel.Skeleton
import proofs.«104618_j39754217292616_1_alg».proof.Proof.Gen.Kernel.Launch
import proofs.«104618_j39754217292616_1_alg».proof.Proof.Gen.Kernel.Points
import proofs.«104618_j39754217292616_1_alg».proof.Proof.Gen.Kernel.Frame
import proofs.«104618_j39754217292616_1_alg».proof.Proof.Gen.KernelIdeal
import proofs.«104618_j39754217292616_1_alg».proof.Proof.Gen.KernelIdeal.Skeleton
import proofs.«104618_j39754217292616_1_alg».proof.Proof.Gen.KernelIdeal.Launch
import proofs.«104618_j39754217292616_1_alg».proof.Proof.Gen.KernelIdeal.Points
import proofs.«104618_j39754217292616_1_alg».proof.Proof.Gen.KernelIdeal.Frame
import proofs.«104618_j39754217292616_1_alg».proof.Proof.Gen.ReferenceIdeal
import proofs.«104618_j39754217292616_1_alg».proof.Proof.Gen.Pre_finite_inputs
import proofs.«104618_j39754217292616_1_alg».proof.Proof.Gen.KernelIdeal.Value
import proofs.«104618_j39754217292616_1_alg».proof.Proof.Gen.ReferenceIdeal.Run
import proofs.«104618_j39754217292616_1_alg».proof.Proof.Gen.ReferenceIdeal.Read
import proofs.«104618_j39754217292616_1_alg».proof.Proof.Spec
import proofs.«104618_j39754217292616_1_alg».proof.Proof.Pieces
import proofs.«104618_j39754217292616_1_alg».proof.Proof.Payload
import proofs.«104618_j39754217292616_1_alg».proof.Proof.KernelValue
import proofs.«104618_j39754217292616_1_alg».proof.Proof.RefValue
import proofs.«104618_j39754217292616_1_alg».proof.Proof.Finite
import Idealize.ShloMosaic.Adequacy
import Idealize.ShloMosaic.Init

noncomputable section

namespace Cert.Proof

open Idealize.ShloMosaic Idealize.SL.Sem Cert.BinLinear

/-- The kernel as printed runs and leaves its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and leaves its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at the stated function of the (agreeing) arguments. -/
theorem algebraic : Cert.algebraic_KernelIdeal_ReferenceIdeal := by
  intro m ρ m' ρ' hpre hagree
  refine ⟨fun c => result (Cert.KernelIdeal.KValue.X m c) (Cert.KernelIdeal.KValue.W m c) (Cert.KernelIdeal.KValue.Sc m c),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2.1, (hagree c).2.2]
  exact Cert.ReferenceIdeal.RefValue.stage_eq _ _ _ (Cert.Pre_finite_inputs.Finite.scales_real _ _ _ (hpre c))

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
